-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x14x1024 : Shape := ⟨3, ![16384, 14, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S_ : Shape := ⟨0, ![]⟩

class Facts : Prop where
  bcast_S_S16384x14x1024 : S_.BroadcastsInDim S16384x14x1024 (![] : Fin 0 → Fin S16384x14x1024.rank)
  reducesTo_S16384x14x1024_S_d0_1_2 : S16384x14x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S16384x14x1024 .f32) (main_arg1 : FVec F S1024x1024 .f32) (main_arg2 : FVec F S1024 .f32) (main_arg3 : FVec F S1024x1 .f32) (main_arg4 : FVec F S1 .f32) : IVec S_ 1 :=
  let main_v0 : FVec F S16384x14x1024 .f32 := Host.absf main_arg0
  let main_cst : FVec F S_ .f32 := constant S_ .f32 0x7F800000#32
  let main_v1 : FVec F S16384x14x1024 .f32 := broadcastInDim S16384x14x1024 ![] bcast_S_S16384x14x1024 main_cst
  let main_v2 : IVec S16384x14x1024 1 := cmpf .olt main_v0 main_v1
  let main_c : IVec S_ 1 := constantI S_ 1 1#1
  let main_v3 : IVec S_ 1 := (fun x v => Host.reduce IntOp.andi x v reducesTo_S16384x14x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_arg4 main_v13 main_v16
-- ==== Kernel.lean ====
abbrev S16384x14x1024 : Shape := ⟨3, ![16384, 14, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1024 : Shape := ⟨2, ![1, 1024]⟩
abbrev S16384x14 : Shape := ⟨2, ![16384, 14]⟩
abbrev S64x14x1024 : Shape := ⟨3, ![64, 14, 1024]⟩
abbrev S64x14 : Shape := ⟨2, ![64, 14]⟩
abbrev S896x1024 : Shape := ⟨2, ![896, 1024]⟩
abbrev S896 : Shape := ⟨1, ![896]⟩
abbrev S896x1 : Shape := ⟨2, ![896, 1]⟩
abbrev S1x1 : Shape := ⟨2, ![1, 1]⟩
abbrev S14x16384 : Shape := ⟨2, ![14, 16384]⟩
abbrev S_ : Shape := ⟨0, ![]⟩
abbrev S14 : Shape := ⟨1, ![14]⟩
abbrev S14x1 : Shape := ⟨2, ![14, 1]⟩
abbrev S16384x1024 : Shape := ⟨2, ![16384, 1024]⟩
abbrev S128x14 : Shape := ⟨2, ![128, 14]⟩
abbrev S128x14x1024 : Shape := ⟨3, ![128, 14, 1024]⟩
abbrev S128x1024 : Shape := ⟨2, ![128, 1024]⟩
abbrev S128x14x1 : Shape := ⟨3, ![128, 14, 1]⟩

abbrev nBuf : Space → Nat
  | .hbm => 26
  | .vmem => 14
  | .smem => 0
  | _ => 0

abbrev bufTy : (tb : Table) → Fin (tcTables nBuf tb) → BufTy
  | .hbm, ⟨0, _⟩ => ⟨S16384x14x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S1024x1024, .bf16⟩
  | .hbm, ⟨6, _⟩ => ⟨S1024x1, .bf16⟩
  | .hbm, ⟨7, _⟩ => ⟨S1x1024, .bf16⟩
  | .hbm, ⟨8, _⟩ => ⟨S16384x14, .f32⟩
  | .hbm, ⟨9, _⟩ => ⟨S14x16384, .f32⟩
  | .hbm, ⟨10, _⟩ => ⟨S_, .f32⟩
  | .hbm, ⟨11, _⟩ => ⟨S14, .f32⟩
  | .hbm, ⟨12, _⟩ => ⟨S_, .f32⟩
  | .hbm, ⟨13, _⟩ => ⟨S14, .f32⟩
  | .hbm, ⟨14, _⟩ => ⟨S14, .f32⟩
  | .hbm, ⟨15, _⟩ => ⟨S14x1, .f32⟩
  | .hbm, ⟨16, _⟩ => ⟨S14x16384, .f32⟩
  | .hbm, ⟨17, _⟩ => ⟨S14x16384, .f32⟩
  | .hbm, ⟨18, _⟩ => ⟨S14x16384, .f32⟩
  | .hbm, ⟨19, _⟩ => ⟨S_, .f32⟩
  | .hbm, ⟨20, _⟩ => ⟨S14, .f32⟩
  | .hbm, ⟨21, _⟩ => ⟨S14x1, .f32⟩
  | .hbm, ⟨22, _⟩ => ⟨S14x16384, .f32⟩
  | .hbm, ⟨23, _⟩ => ⟨S14x16384, .f32⟩
  | .hbm, ⟨24, _⟩ => ⟨S16384x14, .f32⟩
  | .hbm, ⟨25, _⟩ => ⟨S16384x1024, .f32⟩
  | .local _ .vmem, ⟨0, _⟩ => ⟨S64x14x1024, .f32⟩
  | .local _ .vmem, ⟨1, _⟩ => ⟨S64x14x1024, .f32⟩
  | .local _ .vmem, ⟨2, _⟩ => ⟨S1024x1024, .bf16⟩
  | .local _ .vmem, ⟨3, _⟩ => ⟨S1024, .f32⟩
  | .local _ .vmem, ⟨4, _⟩ => ⟨S1x1024, .bf16⟩
  | .local _ .vmem, ⟨5, _⟩ => ⟨S1, .f32⟩
  | .local _ .vmem, ⟨6, _⟩ => ⟨S64x14, .f32⟩
  | .local _ .vmem, ⟨7, _⟩ => ⟨S64x14, .f32⟩
  | .local _ .vmem, ⟨8, _⟩ => ⟨S128x14, .f32⟩
  | .local _ .vmem, ⟨9, _⟩ => ⟨S128x14, .f32⟩
  | .local _ .vmem, ⟨10, _⟩ => ⟨S128x14x1024, .f32⟩
  | .local _ .vmem, ⟨11, _⟩ => ⟨S128x14x1024, .f32⟩
  | .local _ .vmem, ⟨12, _⟩ => ⟨S128x1024, .f32⟩
  | .local _ .vmem, ⟨13, _⟩ => ⟨S128x1024, .f32⟩
  | _, _ => ⟨S16384x14x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x14x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S64x14 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x14 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x14x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  shapeCasts_S1024x1_S1x1024 : S1024x1.ShapeCasts S1x1024
  inb_S64x14x1024_S64x14x1024_0_0_0 : ∀ a, (![0, 0, 0] : Fin 3 → Nat) a + S64x14x1024.size a ≤ S64x14x1024.size a
  h_S64x14x1024 : 0 < S64x14x1024.numel
  shapeCasts_S64x14x1024_S896x1024 : S64x14x1024.ShapeCasts S896x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S896x1024 : S1x1024.Broadcasts S896x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S896x1024_S896 : S896x1024.Reduces [1] S896
  shapeCasts_S896_S896x1 : S896.ShapeCasts S896x1
  inb_S1_S1_0 : ∀ a, (![0] : Fin 1 → Nat) a + S1.size a ≤ S1.size a
  h_S1 : 0 < S1.numel
  shapeCasts_S1_S1x1 : S1.ShapeCasts S1x1
  broadcasts_S1x1_S896x1 : S1x1.Broadcasts S896x1
  shapeCasts_S896x1_S64x14 : S896x1.ShapeCasts S64x14
  inb_S64x14_S64x14_0_0 : ∀ a, (![0, 0] : Fin 2 → Nat) a + S64x14.size a ≤ S64x14.size a
  h_S64x14 : 0 < S64x14.numel
  transposes_S16384x14_S14x16384_1_0 : S16384x14.Transposes [1, 0] S14x16384
  reducesTo_S14x16384_S14_d1 : S14x16384.ReducesTo [1] S14
  h_S_ : 0 < S_.numel
  bcast_S_S14 : S_.BroadcastsInDim S14 (![] : Fin 0 → Fin S14.rank)
  bcast_S14_S14x1_0 : S14.BroadcastsInDim S14x1 (![0] : Fin 1 → Fin S14x1.rank)
  bcast_S14x1_S14x16384_0_1 : S14x1.BroadcastsInDim S14x16384 (![0, 1] : Fin 2 → Fin S14x16384.rank)
  shapeCasts_S14x16384_S16384x14 : S14x16384.ShapeCasts S16384x14
  inb_S128x14_S128x14_0_0 : ∀ a, (![0, 0] : Fin 2 → Nat) a + S128x14.size a ≤ S128x14.size a
  h_S128x14 : 0 < S128x14.numel
  shapeCasts_S128x14_S128x14 : S128x14.ShapeCasts S128x14
  inb_S128x14x1024_S128x14x1024_0_0_0 : ∀ a, (![0, 0, 0] : Fin 3 → Nat) a + S128x14x1024.size a ≤ S128x14x1024.size a
  h_S128x14x1024 : 0 < S128x14x1024.numel
  shapeCasts_S128x14_S128x14x1 : S128x14.ShapeCasts S128x14x1
  broadcasts_S128x14x1_S128x14x1024 : S128x14x1.Broadcasts S128x14x1024
  reduces_S128x14x1024_S128x1024 : S128x14x1024.Reduces [1] S128x1024
  inb_S128x1024_S128x1024_0_0 : ∀ a, (![0, 0] : Fin 2 → Nat) a + S128x1024.size a ≤ S128x1024.size a
  h_S128x1024 : 0 < S128x1024.numel
  dot_S896x1024_S1024x1024_S896x1024_1_0_0_1_n_n_wf : DotDims.WF S896x1024 S1024x1024 S896x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x14x1024.size a ≤ S16384x14x1024.size a
  hwx0_0 : ∀ i : grid0.Coords, EltTy.bits .f32 = 32 ∨ (Rect.block (s := S16384x14x1024) S64x14x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .bf16 = 32 ∨ (Rect.block (s := S1x1024) S1x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x14.size a ≤ S16384x14.size a
  hwx0_5 : ∀ i : grid0.Coords, EltTy.bits .f32 = 32 ∨ (Rect.block (s := S16384x14) S64x14.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x14.size a ≤ S16384x14.size a
  hwx1_0 : ∀ i : grid1.Coords, EltTy.bits .f32 = 32 ∨ (Rect.block (s := S16384x14) S128x14.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x14x1024.size a ≤ S16384x14x1024.size a
  hwx1_1 : ∀ i : grid1.Coords, EltTy.bits .f32 = 32 ∨ (Rect.block (s := S16384x14x1024) S128x14x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1024.size a ≤ S16384x1024.size a
  hwx1_2 : ∀ i : grid1.Coords, EltTy.bits .f32 = 32 ∨ (Rect.block (s := S16384x1024) S128x1024.size (cc1_transform_2 i) (hinb1_2 i)).WholeWords (EltTy.packing .f32)

variable [Facts₀]

def dot_S896x1024_S1024x1024_S896x1024_1_0_0_1_n_n : DotDims S896x1024 S1024x1024 S896x1024 where
  lhsContracting := [1]
  rhsContracting := [0]
  lhsNonContracting := [0]
  rhsNonContracting := [1]
  lhsBatch := []
  rhsBatch := []
  wf := dot_S896x1024_S1024x1024_S896x1024_1_0_0_1_n_n_wf

abbrev win0_0 : Pipeline.Window sig grid0 :=
  Pipeline.Window.ofSpec (Memref.whole main_arg0) S64x14x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S64x14.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v16) S128x14.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S128x14x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x14x1024 : Shape := ⟨3, ![16384, 14, 1024]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩
abbrev S1x1x1024 : Shape := ⟨3, ![1, 1, 1024]⟩
abbrev S16384x14x1 : Shape := ⟨3, ![16384, 14, 1]⟩
abbrev S1x1x1 : Shape := ⟨3, ![1, 1, 1]⟩
abbrev S16384x14 : Shape := ⟨2, ![16384, 14]⟩
abbrev S14x16384 : Shape := ⟨2, ![14, 16384]⟩
abbrev S_ : Shape := ⟨0, ![]⟩
abbrev S14 : Shape := ⟨1, ![14]⟩
abbrev S14x1 : Shape := ⟨2, ![14, 1]⟩
abbrev S16384x1x14 : Shape := ⟨3, ![16384, 1, 14]⟩
abbrev S16384x1x1024 : Shape := ⟨3, ![16384, 1, 1024]⟩
abbrev S16384x1024 : Shape := ⟨2, ![16384, 1024]⟩

abbrev nBuf : Space → Nat
  | .hbm => 33
  | .vmem => 0
  | .smem => 0
  | _ => 0

abbrev bufTy : (tb : Table) → Fin (tcTables nBuf tb) → BufTy
  | .hbm, ⟨0, _⟩ => ⟨S16384x14x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1, .f32⟩
  | .hbm, ⟨5, _⟩ => ⟨S16384x14x1024, .f32⟩
  | .hbm, ⟨6, _⟩ => ⟨S1x1x1024, .f32⟩
  | .hbm, ⟨7, _⟩ => ⟨S16384x14x1024, .f32⟩
  | .hbm, ⟨8, _⟩ => ⟨S16384x14x1024, .f32⟩
  | .hbm, ⟨9, _⟩ => ⟨S16384x14x1024, .f32⟩
  | .hbm, ⟨10, _⟩ => ⟨S16384x14x1, .f32⟩
  | .hbm, ⟨11, _⟩ => ⟨S1x1x1, .f32⟩
  | .hbm, ⟨12, _⟩ => ⟨S16384x14x1, .f32⟩
  | .hbm, ⟨13, _⟩ => ⟨S16384x14x1, .f32⟩
  | .hbm, ⟨14, _⟩ => ⟨S16384x14, .f32⟩
  | .hbm, ⟨15, _⟩ => ⟨S14x16384, .f32⟩
  | .hbm, ⟨16, _⟩ => ⟨S_, .f32⟩
  | .hbm, ⟨17, _⟩ => ⟨S14, .f32⟩
  | .hbm, ⟨18, _⟩ => ⟨S_, .f32⟩
  | .hbm, ⟨19, _⟩ => ⟨S14, .f32⟩
  | .hbm, ⟨20, _⟩ => ⟨S14, .f32⟩
  | .hbm, ⟨21, _⟩ => ⟨S14x1, .f32⟩
  | .hbm, ⟨22, _⟩ => ⟨S14x16384, .f32⟩
  | .hbm, ⟨23, _⟩ => ⟨S14x16384, .f32⟩
  | .hbm, ⟨24, _⟩ => ⟨S14x16384, .f32⟩
  | .hbm, ⟨25, _⟩ => ⟨S_, .f32⟩
  | .hbm, ⟨26, _⟩ => ⟨S14, .f32⟩
  | .hbm, ⟨27, _⟩ => ⟨S14x1, .f32⟩
  | .hbm, ⟨28, _⟩ => ⟨S14x16384, .f32⟩
  | .hbm, ⟨29, _⟩ => ⟨S14x16384, .f32⟩
  | .hbm, ⟨30, _⟩ => ⟨S16384x1x14, .f32⟩
  | .hbm, ⟨31, _⟩ => ⟨S16384x1x1024, .f32⟩
  | .hbm, ⟨32, _⟩ => ⟨S16384x1024, .f32⟩
  | _, _ => ⟨S16384x14x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16384x14x1024_0_1_2 : S1x1x1024.BroadcastsInDim S16384x14x1024 (![0, 1, 2] : Fin 3 → Fin S16384x14x1024.rank)
  bcast_S1_S1x1x1_2 : S1.BroadcastsInDim S1x1x1 (![2] : Fin 1 → Fin S1x1x1.rank)
  bcast_S1x1x1_S16384x14x1_0_1_2 : S1x1x1.BroadcastsInDim S16384x14x1 (![0, 1, 2] : Fin 3 → Fin S16384x14x1.rank)
  shapeCasts_S16384x14x1_S16384x14 : S16384x14x1.ShapeCasts S16384x14
  transposes_S16384x14_S14x16384_1_0 : S16384x14.Transposes [1, 0] S14x16384
  reducesTo_S14x16384_S14_d1 : S14x16384.ReducesTo [1] S14
  h_S_ : 0 < S_.numel
  bcast_S_S14 : S_.BroadcastsInDim S14 (![] : Fin 0 → Fin S14.rank)
  bcast_S14_S14x1_0 : S14.BroadcastsInDim S14x1 (![0] : Fin 1 → Fin S14x1.rank)
  bcast_S14x1_S14x16384_0_1 : S14x1.BroadcastsInDim S14x16384 (![0, 1] : Fin 2 → Fin S14x16384.rank)
  shapeCasts_S14x16384_S16384x1x14 : S14x16384.ShapeCasts S16384x1x14
  shapeCasts_S16384x1x1024_S16384x1024 : S16384x1x1024.ShapeCasts S16384x1024
  dot_S16384x14x1024_S1024x1024_S16384x14x1024_2_0_01_1_n_n_wf : DotDims.WF S16384x14x1024 S1024x1024 S16384x14x1024 [2] [0] [0, 1] [1] [] []
  dot_S16384x14x1024_S1024x1_S16384x14x1_2_0_01_1_n_n_wf : DotDims.WF S16384x14x1024 S1024x1 S16384x14x1 [2] [0] [0, 1] [1] [] []
  dot_S16384x1x14_S16384x14x1024_S16384x1x1024_2_1_1_2_0_0_wf : DotDims.WF S16384x1x14 S16384x14x1024 S16384x1x1024 [2] [1] [1] [2] [0] [0]

variable [Facts₀]

def dot_S16384x14x1024_S1024x1024_S16384x14x1024_2_0_01_1_n_n : DotDims S16384x14x1024 S1024x1024 S16384x14x1024 where
  lhsContracting := [2]
  rhsContracting := [0]
  lhsNonContracting := [0, 1]
  rhsNonContracting := [1]
  lhsBatch := []
  rhsBatch := []
  wf := dot_S16384x14x1024_S1024x1024_S16384x14x1024_2_0_01_1_n_n_wf
def dot_S16384x14x1024_S1024x1_S16384x14x1_2_0_01_1_n_n : DotDims S16384x14x1024 S1024x1 S16384x14x1 where
  lhsContracting := [2]
  rhsContracting := [0]
  lhsNonContracting := [0, 1]
  rhsNonContracting := [1]
  lhsBatch := []
  rhsBatch := []
  wf := dot_S16384x14x1024_S1024x1_S16384x14x1_2_0_01_1_n_n_wf
def dot_S16384x1x14_S16384x14x1024_S16384x1x1024_2_1_1_2_0_0 : DotDims S16384x1x14 S16384x14x1024 S16384x1x1024 where
  lhsContracting := [2]
  rhsContracting := [1]
  lhsNonContracting := [1]
  rhsNonContracting := [2]
  lhsBatch := [0]
  rhsBatch := [0]
  wf := dot_S16384x1x14_S16384x14x1024_S16384x1x1024_2_1_1_2_0_0_wf

class Facts : Prop extends Facts₀ where

variable [Facts]
-- ==== Proof.KernelHost.lean ====
/-
  The kernel program's host operations around its two kernels: what each kernel finds in the buffers it reads, as
  functions of the launch memory and of what the kernel before it left.

  Before the first kernel: the first layer's weights pass through a change of float format, and the second layer's
  weights, a [1024, 1] column, pass through the same change and are re-read row-major as a [1, 1024] row. Between the
  kernels: the scores are transposed to position-major, normalised by a softmax along the batch axis, and re-read
  row-major as a sequence-major array. The token features are never written.
-/
import proofs.«132221_j77446850282041_1_alg».proof.Proof.Gen.KernelIdeal.Frame
import Idealize.ShloMosaic.Lib.StableHlo.Run

set_option maxRecDepth 16384

noncomputable section

namespace Cert.KernelIdeal.HostValue

open Idealize.ShloMosaic Idealize.ShloMosaic.TcCoe Idealize.SL.Sem Idealize.ShloMosaic.StableHlo
open Idealize.ShloMosaic.Pipeline (Dat Cfg Window)
open Cert.KernelIdeal Cert.KernelIdeal.Gen

variable {F : FTy → Type} [FloatOps F]

/-- The softmax along the batch axis of the position-major scores: the sequence-major scores `X` transposed to
    [14, 16384], each row shifted by its maximum, exponentiated, and divided by the row's sum. It is never opened:
    both programs apply these same operations to their scores. -/
def softmaxT (X : FVec F S16384x14 .f32) : FVec F S14x16384 .f32 :=
  Host.divf
    (Host.exp (subf (transpose S14x16384 [1, 0] X transposes_S16384x14_S14x16384_1_0)
      (broadcastInDim S14x16384 ![0, 1] bcast_S14x1_S14x16384_0_1 (broadcastInDim S14x1 ![0] bcast_S14_S14x1_0
        (maximumf (broadcastInDim S14 ![] bcast_S_S14 (constant S_ .f32 0xFF800000#32))
          (Host.reduce FloatOps.maximumf (transpose S14x16384 [1, 0] X transposes_S16384x14_S14x16384_1_0) (constant S_ .f32 0xFF800000#32) reducesTo_S14x16384_S14_d1 h_S_))))))
    (broadcastInDim S14x16384 ![0, 1] bcast_S14x1_S14x16384_0_1 (broadcastInDim S14x1 ![0] bcast_S14_S14x1_0
      (Host.reduceAdd
        (Host.exp (subf (transpose S14x16384 [1, 0] X transposes_S16384x14_S14x16384_1_0)
          (broadcastInDim S14x16384 ![0, 1] bcast_S14x1_S14x16384_0_1 (broadcastInDim S14x1 ![0] bcast_S14_S14x1_0
            (maximumf (broadcastInDim S14 ![] bcast_S_S14 (constant S_ .f32 0xFF800000#32))
              (Host.reduce FloatOps.maximumf (transpose S14x16384 [1, 0] X transposes_S16384x14_S14x16384_1_0) (constant S_ .f32 0xFF800000#32) reducesTo_S14x16384_S14_d1 h_S_))))))
        (constant S_ .f32 0x00000000#32) reducesTo_S14x16384_S14_d1 h_S_)))

variable (m : (ℓ : Loc nD τ sig) → Buf (Elt F) ℓ) (ρ : Dev nD → PrngReg)

/-! ## What the first kernel finds -/

/-- The first layer's weights after the change of format. -/
theorem entry0_w1 (c : Dev nD) :
    V1 m ρ c main_v0 = truncf .bf16 (m ((c : Thread nD τ).loc main_arg1)) bitsLt_bf16_f32 := by
  show StableHlo.after hostOps0 (W0 m ρ c) (Proc.devRef .tc main_v0) = _
  after_results <;> rfl

/-- The second layer's weights after the change of format, re-read as a row. -/
theorem entry0_w2 (c : Dev nD) :
    V1 m ρ c main_v2 = shapeCast S1x1024 (truncf .bf16 (m ((c : Thread nD τ).loc main_arg3)) bitsLt_bf16_f32) shapeCasts_S1024x1_S1x1024 := by
  show StableHlo.after hostOps0 (W0 m ρ c) (Proc.devRef .tc main_v2) = _
  after_results <;> rfl

/-- The token features, the first layer's bias and the second layer's bias are as launched. -/
theorem entry0_q (c : Dev nD) : V1 m ρ c main_arg0 = m ((c : Thread nD τ).loc main_arg0) := by
  show StableHlo.after hostOps0 (W0 m ρ c) (Proc.devRef .tc main_arg0) = _
  after_results <;> rfl
theorem entry0_b1 (c : Dev nD) : V1 m ρ c main_arg2 = m ((c : Thread nD τ).loc main_arg2) := by
  show StableHlo.after hostOps0 (W0 m ρ c) (Proc.devRef .tc main_arg2) = _
  after_results <;> rfl
theorem entry0_b2 (c : Dev nD) : V1 m ρ c main_arg4 = m ((c : Thread nD τ).loc main_arg4) := by
  show StableHlo.after hostOps0 (W0 m ρ c) (Proc.devRef .tc main_arg4) = _
  after_results <;> rfl

/-! ## What the first kernel leaves, and what the second finds -/

/-- The scores buffer when the first kernel is done: its output array after the last grid point. -/
theorem exit0_scores (c : Dev nD) : V2 m ρ c main_v3 = (dat0 (V1 m ρ) c).arrAt 5 cfg0.N :=
  W2_arr m ρ c 5

/-- The weights the second kernel reads: the softmax of what the first kernel left, re-read row-major. -/
theorem entry1_weights (c : Dev nD) :
    V3 m ρ c main_v16 = shapeCast S16384x14 (softmaxT (V2 m ρ c main_v3)) shapeCasts_S14x16384_S16384x14 := by
  show StableHlo.after hostOps1 (W2 m ρ c) (Proc.devRef .tc main_v16) = _
  after_results <;> rfl

/-- The token features the second kernel reads are as launched: no host operation and no kernel writes them. -/
theorem entry1_q (c : Dev nD) : V3 m ρ c main_arg0 = m ((c : Thread nD τ).loc main_arg0) :=
  (A_eq1 (V3 m ρ) c 1).symm.trans (((dat1 (V3 m ρ) c).arrAt_in 1 rfl cfg1.N).symm.trans
    ((W4_arr m ρ c 1).symm.trans (W4_main_arg0 m ρ c)))

/-- The result buffer when the second kernel is done: its output array after the last grid point. -/
theorem exit1_result (c : Dev nD) : W4 m ρ c (Proc.devRef .tc main_v17) = (dat1 (V3 m ρ) c).arrAt 2 cfg1.N :=
  W4_arr m ρ c 2

end Cert.KernelIdeal.HostValue

end
-- ==== Proof.Spec.lean ====
/-
  Attention pooling of a batch of token sequences, as functions on the extended reals.

  A token is a pair (b, s): sequence `b` of 16384, position `s` of 14; it carries a vector of 1024 features.
  * Its SCORE is a two-layer perceptron's output: the hidden unit `d` is `tanh (∑ₖ q[b,s,k] · W₁[k,d] + b₁[d])`, and the
    score is `∑_d hidden_d · w₂[d] + b₂`.
  * The scores, laid out position-major as a [14, 16384] array, are normalised by a softmax along the batch axis, and
    that array is then RE-READ row-major as a [16384, 14] array (no transpose back): the weight used for token (b, s)
    is the entry at flat position `14·b + s` of the [14, 16384] array.
  * The pooled feature `h` of sequence `b` is `∑ₛ weight[b,s] · q[b,s,h]`.
  Nothing here depends on a program: these are the functions both programs are shown to compute.
-/
import Idealize.ShloMosaic.PureOps.Ideal
import Idealize.ShloMosaic.Lib.ValueIdx

noncomputable section

namespace Cert.AttnPool

open Idealize.ShloMosaic Idealize.ShloMosaic.ValueIdx

/-- The token features [16384, 14, 1024]. -/
abbrev SQ : Shape := ⟨3, ![16384, 14, 1024]⟩
/-- The first layer's weights [1024, 1024] (input feature, hidden unit). -/
abbrev SW : Shape := ⟨2, ![1024, 1024]⟩
/-- A vector over the hidden units [1024]. -/
abbrev SH : Shape := ⟨1, ![1024]⟩
/-- One number per token, sequence-major [16384, 14]. -/
abbrev SL : Shape := ⟨2, ![16384, 14]⟩
/-- One number per token, position-major [14, 16384]. -/
abbrev ST : Shape := ⟨2, ![14, 16384]⟩
/-- The pooled features [16384, 1024]. -/
abbrev SO : Shape := ⟨2, ![16384, 1024]⟩

/-- The score of token (b, s): `∑_d tanh (∑ₖ q[b,s,k] · W₁[k,d] + b₁[d]) · w₂[d] + b₂`. The second layer's weights
    are given as a function of the hidden unit and its bias as a number, so that a row [1, 1024] and a column
    [1024, 1] of the same weights give the same score. -/
def scoreAt (q : SQ.Idx → EReal) (w1 : SW.Idx → EReal) (b1 : SH.Idx → EReal) (w2 : Fin 1024 → EReal) (b2 : EReal)
    (b : Fin 16384) (s : Fin 14) : EReal :=
  (∑ d : Fin 1024, Ideal.tanh ((∑ k : Fin 1024, q (ix3 b s k) * w1 (ix2 k d)) + b1 (ix1 d)) * w2 d) + b2

/-- The scores as a sequence-major array. -/
def score (q : SQ.Idx → EReal) (w1 : SW.Idx → EReal) (b1 : SH.Idx → EReal) (w2 : Fin 1024 → EReal) (b2 : EReal) :
    SL.Idx → EReal :=
  fun i => scoreAt q w1 b1 w2 b2 (i 0) (i 1)

/-- The pooled feature `h` of sequence `b` under weights given sequence-major: `∑ₛ a[b,s] · q[b,s,h]`. -/
def poolAt (a : SL.Idx → EReal) (q : SQ.Idx → EReal) (b : Fin 16384) (h : Fin 1024) : EReal :=
  ∑ s : Fin 14, a (ix2 b s) * q (ix3 b s h)

/-- The pooled features as an array. -/
def pool (a : SL.Idx → EReal) (q : SQ.Idx → EReal) : SO.Idx → EReal :=
  fun i => poolAt a q (i 0) (i 1)

theorem flat_div_lt (b : Fin 16384) (s : Fin 14) : (b.val * 14 + s.val) / 16384 < 14 := by
  have := b.isLt; have := s.isLt; omega

theorem flat_mod_lt (b : Fin 16384) (s : Fin 14) : (b.val * 14 + s.val) % 16384 < 16384 := by
  omega

/-- Where the row-major re-reading of a [14, 16384] array as [16384, 14] finds token (b, s): flat position
    `14·b + s`, that is row `(14·b + s) / 16384` and column `(14·b + s) % 16384`. -/
def rereadIdx (b : Fin 16384) (s : Fin 14) : ST.Idx :=
  ix2 ⟨(b.val * 14 + s.val) / 16384, flat_div_lt b s⟩ ⟨(b.val * 14 + s.val) % 16384, flat_mod_lt b s⟩

/-- A position-major array re-read row-major as a sequence-major one. -/
def reread (A : ST.Idx → EReal) : SL.Idx → EReal :=
  fun i => A (rereadIdx (i 0) (i 1))

end Cert.AttnPool

end
-- ==== Proof.KernelScores.lean ====
/-
  What the first kernel leaves in its output array: the token scores.

  The kernel walks the 16384 sequences in 256 blocks of 64. At one block it flattens the [64, 14, 1024] features to
  896 rows of 1024, multiplies them by the first layer's weights, adds the bias row, takes `tanh`, multiplies by the
  second layer's row and sums along the lanes, adds the second bias, and re-reads the 896 numbers as [64, 14]:
  entry `(p, s)` is the score of the token at position `s` of the block's sequence `p` (row `14·p + s`). The blocks
  tile the [16384, 14] array, so after the last point it holds every token's score.
-/
import proofs.«132221_j77446850282041_1_alg».proof.Proof.Gen.KernelIdeal.Frame
import proofs.«132221_j77446850282041_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Scores

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The layout operations of the body, read at an index -/

section Layout
variable {α : Type}

/-- Row `r = 14·p + s` of the [896, 1024] matrix is the features of position `s` of the block's sequence `p`. -/
theorem rows_apply (x : S64x14x1024.Idx → α) (h : S64x14x1024.ShapeCasts S896x1024) (p : Fin 64) (s : Fin 14) (r : Fin 896)
    (k : Fin 1024) (hr : r.val = p.val * 14 + s.val) : shapeCast S896x1024 x h (ix2 r k) = x (ix3 p s k) :=
  shapeCast_apply x h _ _ (by
    rw [Shape.rowMajor_val_three, Shape.rowMajor_val_two]
    show (p.val * 14 + s.val) * 1024 + k.val = r.val * 1024 + k.val
    rw [hr])

/-- A vector [896] as a column [896, 1]. -/
theorem column_apply (x : S896.Idx → α) (h : S896.ShapeCasts S896x1) (r : Fin 896) (u : Fin 1) :
    shapeCast S896x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- The column [896, 1] re-read as [64, 14]: entry `(p, s)` is row `14·p + s`. -/
theorem tokens_apply (x : S896x1.Idx → α) (h : S896x1.ShapeCasts S64x14) (p : Fin 64) (s : Fin 14) (r : Fin 896)
    (hr : r.val = p.val * 14 + s.val) : shapeCast S64x14 x h (ix2 p s) = x (ix2 r (0 : Fin 1)) :=
  shapeCast_apply x h _ _ (by
    rw [Shape.rowMajor_val_two, Shape.rowMajor_val_two]
    show r.val * 1 + 0 = p.val * 14 + s.val
    rw [hr, Nat.mul_one, Nat.add_zero])

/-- The one number [1], as [1, 1], broadcast down the column. -/
theorem scalar_column_apply (x : S1.Idx → α) (h : S1.ShapeCasts S1x1) (h' : S1x1.Broadcasts S896x1) (r : Fin 896) (u : Fin 1) :
    broadcastTo S896x1 (shapeCast S1x1 x h) h' (ix2 r u) = x (ix1 (0 : Fin 1)) := by
  refine (broadcastTo_apply _ h' (ix2 r u) (ix2 (0 : Fin 1) (0 : Fin 1)) fun ax => ?_).trans ?_
  · match ax with
    | ⟨0, _⟩ => rfl
    | ⟨1, _⟩ => rfl
  · exact shapeCast_a_1a_apply x h 0 0

/-- A vector [1024], as a row [1, 1024], broadcast over the 896 rows. -/
theorem vector_rows_apply (x : S1024.Idx → α) (h : S1024.ShapeCasts S1x1024) (h' : S1x1024.Broadcasts S896x1024) (r : Fin 896)
    (d : Fin 1024) : broadcastTo S896x1024 (shapeCast S1x1024 x h) h' (ix2 r d) = x (ix1 d) :=
  (broadcastTo_1b_ab_apply _ h' r d).trans (shapeCast_a_1a_apply x h 0 d)

end Layout

/-! ## The matrix product and the lane sum, read at an index -/

theorem lhs_rows_0 (i : S896x1024.Idx) (q : dot_S896x1024_S1024x1024_S896x1024_1_0_0_1_n_n.contr.Idx) :
    (dot_S896x1024_S1024x1024_S896x1024_1_0_0_1_n_n.lhsIdx i q 0).val = (i 0).val := by
  unfold DotDims.lhsIdx
  rw [dif_neg (show ¬(0 : Fin S896x1024.rank) ∈ dot_S896x1024_S1024x1024_S896x1024_1_0_0_1_n_n.lhsBatch by decide), dif_pos (show (0 : Fin S896x1024.rank) ∈ dot_S896x1024_S1024x1024_S896x1024_1_0_0_1_n_n.lhsNonContracting by decide)]
  rfl
theorem lhs_rows_1 (i : S896x1024.Idx) (q : dot_S896x1024_S1024x1024_S896x1024_1_0_0_1_n_n.contr.Idx) :
    (dot_S896x1024_S1024x1024_S896x1024_1_0_0_1_n_n.lhsIdx i q 1).val = (q ⟨0, by decide⟩).val :=
  dot_S896x1024_S1024x1024_S896x1024_1_0_0_1_n_n.lhsIdx_val_of_single rfl i q
theorem rhs_weights_0 (i : S896x1024.Idx) (q : dot_S896x1024_S1024x1024_S896x1024_1_0_0_1_n_n.contr.Idx) :
    (dot_S896x1024_S1024x1024_S896x1024_1_0_0_1_n_n.rhsIdx i q 0).val = (q ⟨0, by decide⟩).val :=
  dot_S896x1024_S1024x1024_S896x1024_1_0_0_1_n_n.rhsIdx_val_of_single rfl i q
theorem rhs_weights_1 (i : S896x1024.Idx) (q : dot_S896x1024_S1024x1024_S896x1024_1_0_0_1_n_n.contr.Idx) :
    (dot_S896x1024_S1024x1024_S896x1024_1_0_0_1_n_n.rhsIdx i q 1).val = (i 1).val := by
  unfold DotDims.rhsIdx
  rw [dif_neg (show ¬(1 : Fin S1024x1024.rank) ∈ dot_S896x1024_S1024x1024_S896x1024_1_0_0_1_n_n.rhsBatch by decide), dif_pos (show (1 : Fin S1024x1024.rank) ∈ dot_S896x1024_S1024x1024_S896x1024_1_0_0_1_n_n.rhsNonContracting by decide)]
  rfl

/-- The product of the [896, 1024] rows with the [1024, 1024] weights, into the zero accumulator: entry `(r, d)` is
    `∑ₖ rows[r, k] · weights[k, d]`. -/
theorem product_apply (a : FVec Ideal S896x1024 .bf16) (w : FVec Ideal S1024x1024 .bf16) (r : Fin 896) (d : Fin 1024) :
    matmul dot_S896x1024_S1024x1024_S896x1024_1_0_0_1_n_n none a w (constant (F := Ideal) S896x1024 .f32 0x00000000#32) (ix2 r d)
      = ∑ k : Fin 1024, a (ix2 r k) * w (ix2 k d) := by
  simp only [matmul]
  rw [Ideal.matmul_constant_zero_apply, ← Equiv.sum_comp (ValueIdx.contrEquiv1 dot_S896x1024_S1024x1024_S896x1024_1_0_0_1_n_n 1024 rfl rfl).symm]
  refine Finset.sum_congr rfl fun k _ => ?_
  have hk := ValueIdx.contrEquiv1_symm_val dot_S896x1024_S1024x1024_S896x1024_1_0_0_1_n_n 1024 rfl rfl k
  have el : dot_S896x1024_S1024x1024_S896x1024_1_0_0_1_n_n.lhsIdx (ix2 r d) ((ValueIdx.contrEquiv1 dot_S896x1024_S1024x1024_S896x1024_1_0_0_1_n_n 1024 rfl rfl).symm k) = ix2 r k := funext fun ax => Fin.ext (by
    match ax with
    | ⟨0, _⟩ => exact lhs_rows_0 _ _
    | ⟨1, _⟩ => exact (lhs_rows_1 _ _).trans hk)
  have er : dot_S896x1024_S1024x1024_S896x1024_1_0_0_1_n_n.rhsIdx (ix2 r d) ((ValueIdx.contrEquiv1 dot_S896x1024_S1024x1024_S896x1024_1_0_0_1_n_n 1024 rfl rfl).symm k) = ix2 k d := funext fun ax => Fin.ext (by
    match ax with
    | ⟨0, _⟩ => exact (rhs_weights_0 _ _).trans hk
    | ⟨1, _⟩ => exact rhs_weights_1 _ _)
  rw [el, er]

/-- The sum along the 1024 lanes of row `r`. -/
theorem lane_sum_apply (v : FVec Ideal S896x1024 .f32) (h : S896x1024.Reduces [1] S896) (hφ : FKind.Formats .f32)
    (hacc : (0x00000000#32 : BitVec 32) = 0x00000000#32) (r : Fin 896) :
    multiReduction (F := Ideal) .add [1] S896 v 0x00000000#32 h hφ hacc (ix1 r) = ∑ d : Fin 1024, v (ix2 r d) := by
  refine (Ideal.multiReduction_add_single v 0x00000000#32 h hφ hacc (ix1 r)).trans ?_
  refine Finset.sum_congr rfl fun d _ => congrArg v (funext fun ax => Fin.ext ?_)
  match ax with
  | ⟨0, _⟩ => rfl
  | ⟨1, _⟩ => rfl

/-! ## The body's result at a token -/

/-- Entry `(p, s)` of what the body stores: the score of the token at position `s` of the block's sequence `p`,
    a two-layer perceptron of its 1024 features. -/
theorem body_apply (x0 : Vec Ideal S64x14x1024 .f32) (x1 : Vec Ideal S1024x1024 .bf16) (x2 : Vec Ideal S1024 .f32)
    (x3 : Vec Ideal S1x1024 .bf16) (x4 : Vec Ideal S1 .f32) (p : Fin 64) (s : Fin 14) :
    k0_pay1 x0 x1 x2 x3 x4 (ix2 p s)
      = (∑ d : Fin 1024, Ideal.tanh ((∑ k : Fin 1024, x0 (ix3 p s k) * x1 (ix2 k d)) + x2 (ix1 d)) * x3 (ix2 0 d))
          + x4 (ix1 0) := by
  have hr : p.val * 14 + s.val < 896 := by have := p.isLt; have := s.isLt; omega
  unfold k0_pay1
  refine (tokens_apply _ _ p s ⟨p.val * 14 + s.val, hr⟩ rfl).trans ?_
  rw [addf_apply, column_apply, scalar_column_apply]
  congr 1
  refine (lane_sum_apply _ _ _ _ _).trans ?_
  refine Finset.sum_congr rfl fun d _ => ?_
  rw [mulf_apply]
  congr 1
  · show Ideal.tanh (_ + _) = _
    congr 1
    congr 1
    · refine (product_apply _ _ _ d).trans ?_
      refine Finset.sum_congr rfl fun k _ => ?_
      rw [shapeCast_self]
      congr 1
      exact rows_apply x0 _ p s _ k rfl
    · exact vector_rows_apply x2 _ _ _ d
  · refine (broadcastTo_1b_ab_apply _ _ _ d).trans ?_
    show shapeCast S1x1024 x3 _ (ix2 0 d) = _
    rw [shapeCast_self]

/-- The body's result at `(p, s)` is the score of a token `(b, s')` of the whole arrays, once the blocks are known to hold
    those arrays' entries: the features of `(b, s')` at the block's `(p, s)`, and the weights and biases whole. -/
theorem body_eq_scoreAt (x0 : Vec Ideal S64x14x1024 .f32) (x1 : Vec Ideal S1024x1024 .bf16) (x2 : Vec Ideal S1024 .f32)
    (x3 : Vec Ideal S1x1024 .bf16) (x4 : Vec Ideal S1 .f32)
    (q : Cert.AttnPool.SQ.Idx → EReal) (w1 : Cert.AttnPool.SW.Idx → EReal) (b1 : Cert.AttnPool.SH.Idx → EReal)
    (w2 : Fin 1024 → EReal) (b2 : EReal) (p : Fin 64) (s : Fin 14) (b : Fin 16384) (s' : Fin 14)
    (h0 : ∀ k : Fin 1024, x0 (ix3 p s k) = q (ix3 b s' k)) (h1 : ∀ (k d : Fin 1024), x1 (ix2 k d) = w1 (ix2 k d))
    (h2 : ∀ d : Fin 1024, x2 (ix1 d) = b1 (ix1 d)) (h3 : ∀ d : Fin 1024, x3 (ix2 0 d) = w2 d) (h4 : x4 (ix1 0) = b2) :
    k0_pay1 x0 x1 x2 x3 x4 (ix2 p s) = Cert.AttnPool.scoreAt q w1 b1 w2 b2 b s' := by
  rw [body_apply]
  unfold Cert.AttnPool.scoreAt
  simp only [h0, h1, h2, h3, h4]

/-! ## From the blocks to the array -/

theorem origin1 : (![0] : Fin 1 → Nat) = fun _ => 0 := funext fun a => by
  match a with
  | ⟨0, _⟩ => rfl
theorem origin2 : (![0, 0] : Fin 2 → Nat) = fun _ => 0 := funext fun a => by
  match a with
  | ⟨0, _⟩ => rfl
  | ⟨1, _⟩ => rfl
theorem origin3 : (![0, 0, 0] : Fin 3 → Nat) = fun _ => 0 := funext fun a => by
  match a with
  | ⟨0, _⟩ => rfl
  | ⟨1, _⟩ => rfl
  | ⟨2, _⟩ => rfl

/-- The index maps over the 256 grid points: the features' block and the scores' block at point `t` are both block `t`
    along the sequences and block 0 elsewhere; the weights and biases are always their one whole block. -/
theorem block_index : ∀ t : Fin cfg0.N,
    win0_0.index t (0 : Fin 3) = win0_5.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- What grid point `t` writes back is block `t` of the scores of the arrays as the kernel found them. -/
theorem written_block (c : Dev nD) (t : Fin cfg0.N) :
    (dat0 (F := Ideal) V c).flushed 5 t
      = ((cfg0.win 5).blk t).view.read (Elt Ideal)
          (Cert.AttnPool.score (V c main_arg0) (V c main_v0) (V c main_arg2) (fun d => V c main_v2 (ix2 0 d)) (V c main_arg4 (ix1 0))) := by
  show (cfg0.win 5).cut (grid0.coords t) ((dat0 (F := Ideal) V c).after 5 t) = _
  rw [after0_5]
  unfold out0_5
  rw [View.canon_unit_zero origin2]
  simp only [View.ld_unit_zero (S := S64x14x1024) origin3, View.ld_unit_zero (S := S1024x1024) origin2,
    View.ld_unit_zero (S := S1024) origin1, View.ld_unit_zero (S := S1x1024) origin2, View.ld_unit_zero (S := S1) origin1]
  obtain ⟨e00, e01, e02, e10, e11, e20, e30, e31, e40, e50, e51⟩ := block_index t
  funext j
  obtain ⟨p, s, rfl⟩ : ∃ (p : Fin 64) (s : Fin 14), j = ix2 p s := ⟨j 0, j 1, eq_ix2 j⟩
  refine body_eq_scoreAt (iblk0 V c 0 t) (iblk0 V c 1 t) (iblk0 V c 2 t) (iblk0 V c 3 t) (iblk0 V c 4 t) _ _ _ _ _ p s
    (((cfg0.win 5).blk t).view.emb (ix2 p s) 0) (((cfg0.win 5).blk t).view.emb (ix2 p s) 1) ?_ ?_ ?_ ?_ ?_
  · intro k
    show V c main_arg0 (((cfg0.win 0).blk t).view.emb (ix3 p s k)) = V c main_arg0 _
    refine congrArg _ (funext fun a => Fin.ext ?_)
    match a with
    | ⟨0, _⟩ => show win0_0.index t (0 : Fin 3) * 64 + 1 * p.val = win0_5.index t (0 : Fin 2) * 64 + 1 * p.val; omega
    | ⟨1, _⟩ => show win0_0.index t (1 : Fin 3) * 14 + 1 * s.val = win0_5.index t (1 : Fin 2) * 14 + 1 * s.val; omega
    | ⟨2, _⟩ => show win0_0.index t (2 : Fin 3) * 1024 + 1 * k.val = k.val; omega
  · intro k d
    show V c main_v0 (((cfg0.win 1).blk t).view.emb (ix2 k d)) = V c main_v0 (ix2 k d)
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * d.val = d.val; omega
  · intro d
    show V c main_arg2 (((cfg0.win 2).blk t).view.emb (ix1 d)) = V c main_arg2 (ix1 d)
    refine congrArg _ (funext fun a => Fin.ext ?_)
    match a with
    | ⟨0, _⟩ => show win0_2.index t (0 : Fin 1) * 1024 + 1 * d.val = d.val; omega
  · intro d
    show V c main_v2 (((cfg0.win 3).blk t).view.emb (ix2 0 d)) = V c main_v2 (ix2 0 d)
    refine congrArg _ (funext fun a => Fin.ext ?_)
    match a with
    | ⟨0, _⟩ => show win0_3.index t (0 : Fin 2) * 1 + 1 * 0 = 0; omega
    | ⟨1, _⟩ => show win0_3.index t (1 : Fin 2) * 1024 + 1 * d.val = d.val; omega
  · show V c main_arg4 (((cfg0.win 4).blk t).view.emb (ix1 0)) = V c main_arg4 (ix1 0)
    refine congrArg _ (funext fun a => Fin.ext ?_)
    match a with
    | ⟨0, _⟩ => show win0_4.index t (0 : Fin 1) * 1 + 1 * 0 = 0; omega

/-- An index of the scores array is in point `t`'s block iff each coordinate is in the block's range on its axis. -/
theorem mem_block (t : Fin cfg0.N) (i : S16384x14.Idx) :
    i ∈ ((cfg0.win 5).blk t).view.set ↔ ∀ a : Fin 2, win0_5.index t a * S64x14.size a ≤ (i a).val ∧ (i a).val < win0_5.index t a * S64x14.size a + S64x14.size a := by
  show i ∈ ((View.whole main_v3).slice (win0_5.rect t)).set ↔ _
  rw [View.set_slice_whole, Rect.mem_set_unit]
  exact Iff.rfl

/-- Every token is in some point's block: sequence `b` is in block `b / 64`, and 256 · 64 = 16384. -/
theorem covered (i : S16384x14.Idx) :
    ∃ t : Fin cfg0.N, (cfg0.win 5).flush t = true ∧ i ∈ ((cfg0.win 5).blk t).view.set := by
  have hi0 : (i 0).val < 16384 := (i 0).isLt
  have hi1 : (i 1).val < 14 := (i 1).isLt
  have hlt : (i 0).val / 64 < grid0.N := by rw [N_0]; omega
  refine ⟨⟨(i 0).val / 64, hlt⟩, flush0_5 _, ?_⟩
  rw [mem_block]
  obtain ⟨-, -, -, -, -, -, -, -, -, e50, e51⟩ := block_index ⟨(i 0).val / 64, hlt⟩
  have e50' : win0_5.index ⟨(i 0).val / 64, hlt⟩ (0 : Fin 2) = (i 0).val / 64 := e50
  intro a
  match a with
  | ⟨0, _⟩ => show win0_5.index _ (0 : Fin 2) * 64 ≤ (i 0).val ∧ (i 0).val < win0_5.index _ (0 : Fin 2) * 64 + 64; omega
  | ⟨1, _⟩ => show win0_5.index _ (1 : Fin 2) * 14 ≤ (i 1).val ∧ (i 1).val < win0_5.index _ (1 : Fin 2) * 14 + 14; omega

/-- After the first kernel's 256 grid points its output array holds the score of every token, computed from the
    arrays as the kernel found them. -/
theorem scores_final (c : Dev nD) :
    (dat0 (F := Ideal) V c).arrAt 5 cfg0.N
      = Cert.AttnPool.score (V c main_arg0) (V c main_v0) (V c main_arg2) (fun d => V c main_v2 (ix2 0 d)) (V c main_arg4 (ix1 0)) :=
  (dat0 (F := Ideal) V c).arrAt_eq_of_cover 5 _ (fun t _ => written_block V c t) covered

end Cert.KernelIdeal.Scores

end
-- ==== Proof.KernelPooled.lean ====
/-
  What the second kernel leaves in its output array: the pooled features.

  Each of the 128 grid points takes 128 sequences: their weights [128, 14], their token features [128, 14, 1024], and
  writes their pooled features [128, 1024]. The body gives the weights a unit feature axis, spreads them along the
  1024 features, multiplies by the token features and sums over the 14 positions: entry (p, h) of the block is
  ∑ₛ weight (p, s) · feature (p, s, h). Block t of each array is rows 128·t … 128·t + 127, and the 128 blocks of 128
  rows are the 16384 rows, so the array ends holding ∑ₛ a[b,s] · q[b,s,h] at every (b, h).
-/
import proofs.«132221_j77446850282041_1_alg».proof.Proof.Gen.KernelIdeal.Frame
import proofs.«132221_j77446850282041_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Pooled

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## One block of the output: the position sum of weight times feature -/

/-- The inserted index of the position sum: (p, s, h). -/
theorem lift_pos (p : Fin 128) (h : Fin 1024) (s : Fin 14) :
    reduces_S128x14x1024_S128x1024.lift (ix2 p h) s = ix3 p s h := by
  funext c; apply Fin.ext
  match c with
  | ⟨0, _⟩ => rfl
  | ⟨1, _⟩ => rfl
  | ⟨2, _⟩ => rfl

/-- The weights block with a unit feature axis added, spread along the features, reads (p, s) at every (p, s, h). -/
theorem spread_weights (x0 : Vec Ideal S128x14 .f32) (p : Fin 128) (s : Fin 14) (h : Fin 1024) :
    broadcastTo S128x14x1024
        (shapeCast S128x14x1 (shapeCast S128x14 x0 shapeCasts_S128x14_S128x14) shapeCasts_S128x14_S128x14x1)
        broadcasts_S128x14x1_S128x14x1024 (ix3 p s h) = x0 (ix2 p s) := by
  rw [shapeCast_self]
  refine (broadcastTo_apply _ _ (ix3 p s h) (ix3 p s (0 : Fin 1)) fun a => ?_).trans ?_
  · match a with
    | ⟨0, _⟩ => rfl
    | ⟨1, _⟩ => rfl
    | ⟨2, _⟩ => rfl
  · refine shapeCast_apply _ _ _ (ix2 p s) ?_
    rw [Shape.rowMajor_val_three, Shape.rowMajor_val_two]
    show p.val * 14 + s.val = (p.val * 14 + s.val) * 1 + 0
    omega

/-- Entry (p, h) of the block the body stores: the sum over the 14 positions of weight (p, s) times feature (p, s, h). -/
theorem pooled_block (x0 : Vec Ideal S128x14 .f32) (x1 : Vec Ideal S128x14x1024 .f32) (p : Fin 128) (h : Fin 1024) :
    k1_pay1 x0 x1 (ix2 p h) = ∑ s : Fin 14, x0 (ix2 p s) * x1 (ix3 p s h) := by
  unfold k1_pay1
  refine (Ideal.multiReduction_add_single (φ := .f32) _ _ reduces_S128x14x1024_S128x1024 _ _ (ix2 p h)).trans ?_
  show ∑ k : Fin 14, _ = _
  refine Finset.sum_congr rfl fun k _ => ?_
  rw [lift_pos, mulf_apply, spread_weights]

/-! ## Where a block sits in its array -/

/-- The zero offsets of a whole-block access, at rank 2 and rank 3. -/
theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- At point t all three windows sit at block row t, and at block 0 on every other axis. -/
theorem block_rows : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 3) = t.val ∧ win1_1.index t (1 : Fin 3) = 0 ∧ win1_1.index t (2 : Fin 3) = 0 :=
  (by decide +kernel : ∀ t : Fin grid1.N, _)

/-- WHAT POINT t WRITES BACK is block t of the pooled features of the weights and token features as the kernel found them. -/
theorem written_block (c : Dev nD) (t : Fin cfg1.N) :
    (dat1 (F := Ideal) V c).flushed 2 t
      = ((cfg1.win 2).blk t).view.read (Elt Ideal) (Cert.AttnPool.pool (V c main_v16) (V c main_arg0)) := by
  show (cfg1.win 2).cut (grid1.coords t) ((dat1 V c).after 2 t) = _
  rw [after1_2]
  unfold out1_2
  rw [View.canon_unit_zero zero_offsets2]
  simp only [View.ld_unit_zero (S := S128x14) zero_offsets2, View.ld_unit_zero (S := S128x14x1024) zero_offsets3]
  obtain ⟨e20, e21, e00, e01, e10, e11, e12⟩ := block_rows t
  refine funext fun (j : S128x1024.Idx) => ?_
  obtain ⟨p, h, rfl⟩ : ∃ (p : Fin 128) (h : Fin 1024), j = ix2 p h := ⟨j 0, j 1, eq_ix2 j⟩
  show k1_pay1 (iblk1 V c 0 t) (iblk1 V c 1 t) (ix2 p h)
      = Cert.AttnPool.pool (V c main_v16) (V c main_arg0) (((cfg1.win 2).blk t).view.emb (ix2 p h))
  refine (pooled_block _ _ p h).trans ?_
  show _ = Cert.AttnPool.poolAt _ _ _ _
  unfold Cert.AttnPool.poolAt
  refine Finset.sum_congr rfl fun s _ => ?_
  have ha : iblk1 V c 0 t (ix2 p s) = V c main_v16 (ix2 (((cfg1.win 2).blk t).view.emb (ix2 p h) 0) s) := by
    show V c main_v16 (((cfg1.win 0).blk t).view.emb (ix2 p s)) = _
    refine congrArg (V c main_v16) (funext fun a => Fin.ext ?_)
    match a with
    | ⟨0, _⟩ =>
      show win1_0.index t (0 : Fin 2) * 128 + 1 * p.val = win1_2.index t (0 : Fin 2) * 128 + 1 * p.val
      omega
    | ⟨1, _⟩ =>
      show win1_0.index t (1 : Fin 2) * 14 + 1 * s.val = s.val
      omega
  have hq : iblk1 V c 1 t (ix3 p s h)
      = V c main_arg0 (ix3 (((cfg1.win 2).blk t).view.emb (ix2 p h) 0) s (((cfg1.win 2).blk t).view.emb (ix2 p h) 1)) := by
    show V c main_arg0 (((cfg1.win 1).blk t).view.emb (ix3 p s h)) = _
    refine congrArg (V c main_arg0) (funext fun a => Fin.ext ?_)
    match a with
    | ⟨0, _⟩ =>
      show win1_1.index t (0 : Fin 3) * 128 + 1 * p.val = win1_2.index t (0 : Fin 2) * 128 + 1 * p.val
      omega
    | ⟨1, _⟩ =>
      show win1_1.index t (1 : Fin 3) * 14 + 1 * s.val = s.val
      omega
    | ⟨2, _⟩ =>
      show win1_1.index t (2 : Fin 3) * 1024 + 1 * h.val = win1_2.index t (1 : Fin 2) * 1024 + 1 * h.val
      omega
  rw [ha, hq]

/-! ## From the blocks to the array -/

/-- An index of the output array is in point t's block iff each coordinate is in the block's range on its axis. -/
theorem mem_block_iff (t : Fin cfg1.N) (i : S16384x1024.Idx) :
    i ∈ ((cfg1.win 2).blk t).view.set ↔ ∀ a : Fin 2, win1_2.index t a * S128x1024.size a ≤ (i a).val
      ∧ (i a).val < win1_2.index t a * S128x1024.size a + S128x1024.size a := by
  show i ∈ ((View.whole main_v17).slice (win1_2.rect t)).set ↔ _
  rw [View.set_slice_whole, Rect.mem_set_unit]
  exact Iff.rfl

/-- Every index of the output array is in the block of the point its row falls to: row r belongs to point r / 128,
    and 128 blocks of 128 rows are the 16384 rows. -/
theorem rows_covered (i : S16384x1024.Idx) :
    ∃ t : Fin cfg1.N, (cfg1.win 2).flush t = true ∧ i ∈ ((cfg1.win 2).blk t).view.set := by
  have hi0 : (i 0).val < 16384 := (i 0).isLt
  have hi1 : (i 1).val < 1024 := (i 1).isLt
  have hN : cfg1.N = 128 := N_1
  refine ⟨⟨(i 0).val / 128, by rw [hN]; omega⟩, flush1_2 _, ?_⟩
  obtain ⟨e20, e21, -⟩ := block_rows ⟨(i 0).val / 128, by rw [hN]; omega⟩
  rw [mem_block_iff]
  intro a
  match a with
  | ⟨0, _⟩ =>
    show win1_2.index ⟨(i 0).val / 128, _⟩ (0 : Fin 2) * 128 ≤ (i 0).val
      ∧ (i 0).val < win1_2.index ⟨(i 0).val / 128, _⟩ (0 : Fin 2) * 128 + 128
    rw [e20]
    show (i 0).val / 128 * 128 ≤ (i 0).val ∧ (i 0).val < (i 0).val / 128 * 128 + 128
    omega
  | ⟨1, _⟩ =>
    show win1_2.index ⟨(i 0).val / 128, _⟩ (1 : Fin 2) * 1024 ≤ (i 1).val
      ∧ (i 1).val < win1_2.index ⟨(i 0).val / 128, _⟩ (1 : Fin 2) * 1024 + 1024
    rw [e21]
    omega

/-- After the second kernel's 128 grid points its output array holds every sequence's pooled features, computed from
    the weights and the token features as the kernel found them. -/
theorem pooled_final (c : Dev nD) :
    (dat1 (F := Ideal) V c).arrAt 2 cfg1.N = Cert.AttnPool.pool (V c main_v16) (V c main_arg0) :=
  (dat1 (F := Ideal) V c).arrAt_eq_of_cover 2 _ (fun t _ => written_block V c t) rows_covered

end Cert.KernelIdeal.Pooled

end
-- ==== Proof.KernelValue.lean ====
/-
  The kernel program's result as the specification's functions of the launch memory.

  The second kernel's output array is the pooling of what it read: the token features, as launched, under weights that
  are the softmax of the first kernel's output array re-read row-major; and the first kernel's output array is the
  scores of what IT read, which is the launch memory up to two changes of float format (the identity on the extended
  reals) and the re-reading of the second layer's [1024, 1] column as a [1, 1024] row (entry `d` of the row is entry
  `d` of the column).
-/
import proofs.«132221_j77446850282041_1_alg».proof.Proof.KernelHost
import proofs.«132221_j77446850282041_1_alg».proof.Proof.KernelScores
import proofs.«132221_j77446850282041_1_alg».proof.Proof.KernelPooled
import proofs.«132221_j77446850282041_1_alg».proof.Proof.Spec
import Idealize.ShloMosaic.Lib.Pipeline.Value
import Idealize.ShloMosaic.Lib.ValueIdx

set_option maxRecDepth 16384

noncomputable section

namespace Cert.KernelIdeal.ResultValue

open Idealize.ShloMosaic Idealize.ShloMosaic.TcCoe Idealize.ShloMosaic.ValueIdx Idealize.SL.Sem
open Cert.KernelIdeal Cert.KernelIdeal.Gen Cert.KernelIdeal.HostValue

variable (m : (ℓ : Loc nD τ sig) → Buf (Elt Ideal) ℓ) (ρ : Dev nD → PrngReg)

/-- On the extended reals the change of float format is the identity: the first kernel reads the first layer's
    weights as launched. -/
theorem w1_as_launched (c : Dev nD) : V1 m ρ c main_v0 = m ((c : Thread nD τ).loc main_arg1) :=
  (entry0_w1 m ρ c).trans (funext fun _ => rfl)

/-- Entry `d` of the row the first kernel reads is entry `d` of the second layer's column as launched: both sit
    at flat position `d`. -/
theorem w2_as_launched (c : Dev nD) (d : Fin 1024) :
    V1 m ρ c main_v2 (ix2 0 d) = m ((c : Thread nD τ).loc main_arg3) (ix2 d 0) := by
  rw [entry0_w2]
  refine (shapeCast_apply _ shapeCasts_S1024x1_S1x1024 (ix2 (0 : Fin 1) d) (ix2 d (0 : Fin 1)) ?_).trans rfl
  rewrite [Shape.rowMajor_val_two, Shape.rowMajor_val_two]
  show d.val * 1 + 0 = 0 * 1024 + d.val
  omega

/-- A [14, 16384] array re-read row-major as [16384, 14]: token (b, s) finds flat position `14·b + s`. -/
theorem reread_eq (Y : FVec Ideal S14x16384 .f32) :
    shapeCast S16384x14 Y shapeCasts_S14x16384_S16384x14 = Cert.AttnPool.reread Y := by
  funext i
  obtain ⟨b, s, rfl⟩ : ∃ (b : Fin 16384) (s : Fin 14), i = ix2 b s := ⟨i 0, i 1, eq_ix2 i⟩
  refine (shapeCast_apply Y shapeCasts_S14x16384_S16384x14 (ix2 b s) (Cert.AttnPool.rereadIdx b s) ?_).trans rfl
  rewrite [Shape.rowMajor_val_two, Shape.rowMajor_val_two]
  show (b.val * 14 + s.val) / 16384 * 16384 + (b.val * 14 + s.val) % 16384 = b.val * 14 + s.val
  omega

/-- The first kernel's output array holds the scores of the launch memory. -/
theorem scores_as_launched (c : Dev nD) :
    V2 m ρ c main_v3 = Cert.AttnPool.score (m ((c : Thread nD τ).loc main_arg0)) (m ((c : Thread nD τ).loc main_arg1))
      (m ((c : Thread nD τ).loc main_arg2)) (fun d => m ((c : Thread nD τ).loc main_arg3) (ix2 d 0))
      (m ((c : Thread nD τ).loc main_arg4) (ix1 0)) := by
  rw [exit0_scores, Cert.KernelIdeal.Scores.scores_final (V1 m ρ) c, entry0_q, w1_as_launched, entry0_b1, entry0_b2,
    show (fun d => V1 m ρ c main_v2 (ix2 0 d)) = fun d => m ((c : Thread nD τ).loc main_arg3) (ix2 d 0) from
      funext (w2_as_launched m ρ c)]

/-- THE RESULT: the result buffer at the end of the run is the pooling of the launched token features under the
    softmax of their scores, re-read row-major. -/
theorem result_as_launched (c : Dev nD) :
    W4 m ρ c (Proc.devRef .tc main_v17)
      = Cert.AttnPool.pool (Cert.AttnPool.reread (softmaxT (F := Ideal) (Cert.AttnPool.score
          (m ((c : Thread nD τ).loc main_arg0)) (m ((c : Thread nD τ).loc main_arg1)) (m ((c : Thread nD τ).loc main_arg2))
          (fun d => m ((c : Thread nD τ).loc main_arg3) (ix2 d 0)) (m ((c : Thread nD τ).loc main_arg4) (ix1 0)))))
        (m ((c : Thread nD τ).loc main_arg0)) := by
  rw [exit1_result, Cert.KernelIdeal.Pooled.pooled_final (V3 m ρ) c, entry1_q, entry1_weights, reread_eq, scores_as_launched]

end Cert.KernelIdeal.ResultValue

end
-- ==== Proof.RefValue.lean ====
/-
  The reference program's result, stage by stage, as the specification's functions: the scores are the two-layer
  perceptron's, the normalised weights are the batch-axis softmax of the scores, and the result pools the token
  features under those weights re-read row-major.
-/
import proofs.«132221_j77446850282041_1_alg».proof.Proof.Gen.ReferenceIdeal.Read
import proofs.«132221_j77446850282041_1_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

section AnyInstance
variable {F : FTy → Type} [FloatOps F]

/-- The softmax along the batch axis of the position-major scores: the sequence-major scores `X` transposed to
    [14, 16384], each row shifted by its maximum, exponentiated, and divided by the row's sum. It is never opened:
    both programs apply these same operations to their scores. -/
def softmaxT (X : FVec F S16384x14 .f32) : FVec F S14x16384 .f32 :=
  Host.divf
    (Host.exp (subf (transpose S14x16384 [1, 0] X transposes_S16384x14_S14x16384_1_0)
      (broadcastInDim S14x16384 ![0, 1] bcast_S14x1_S14x16384_0_1 (broadcastInDim S14x1 ![0] bcast_S14_S14x1_0
        (maximumf (broadcastInDim S14 ![] bcast_S_S14 (constant S_ .f32 0xFF800000#32))
          (Host.reduce FloatOps.maximumf (transpose S14x16384 [1, 0] X transposes_S16384x14_S14x16384_1_0) (constant S_ .f32 0xFF800000#32) reducesTo_S14x16384_S14_d1 h_S_))))))
    (broadcastInDim S14x16384 ![0, 1] bcast_S14x1_S14x16384_0_1 (broadcastInDim S14x1 ![0] bcast_S14_S14x1_0
      (Host.reduceAdd
        (Host.exp (subf (transpose S14x16384 [1, 0] X transposes_S16384x14_S14x16384_1_0)
          (broadcastInDim S14x16384 ![0, 1] bcast_S14x1_S14x16384_0_1 (broadcastInDim S14x1 ![0] bcast_S14_S14x1_0
            (maximumf (broadcastInDim S14 ![] bcast_S_S14 (constant S_ .f32 0xFF800000#32))
              (Host.reduce FloatOps.maximumf (transpose S14x16384 [1, 0] X transposes_S16384x14_S14x16384_1_0) (constant S_ .f32 0xFF800000#32) reducesTo_S14x16384_S14_d1 h_S_))))))
        (constant S_ .f32 0x00000000#32) reducesTo_S14x16384_S14_d1 h_S_)))

/-- The reference's normalised weights are the softmax of its scores. -/
theorem softmax_stage (x0 : FVec F S16384x14x1024 .f32) (x1 : FVec F S1024x1024 .f32) (x2 : FVec F S1024 .f32) (x3 : FVec F S1024x1 .f32) (x4 : FVec F S1 .f32) :
    val_main_v21 (F := F) x0 x1 x2 x3 x4 = softmaxT (val_main_v9 (F := F) x0 x1 x2 x3 x4) := by
  unfold val_main_v21 val_main_v20 val_main_v19 val_main_v18 val_main_cst_1 val_main_v17 val_main_v16 val_main_v15
    val_main_v14 val_main_v13 val_main_v12 val_main_cst_0 val_main_v11 val_main_cst val_main_v10 softmaxT
  generalize val_main_v9 (F := F) x0 x1 x2 x3 x4 = X
  rfl

end AnyInstance

/-! ## Where the composed index functions land

Each stage reads its operand at an index computed from the result's index; along the chain of stages these
compositions are the coordinate tuples themselves. The only arithmetic is that of the reshapes:
`(b·14 + s) / 14 = b`, `(b·14 + s) % 14 = s`, `(b·1024 + h) / 1024 = b`, `(b·1024 + h) % 1024 = h`. -/

/-- The hidden activations read by the second contraction at token (b, s): entry (b, s, d). -/
theorem lidx5_at (b : Fin 16384) (s : Fin 14) (d : Fin 1024) :
    lidx_main_v5 (idx_main_v9 (ix2 b s)) d = ix3 b s d := by
  have hb := b.isLt; have hs := s.isLt
  funext a; apply Fin.ext
  match a with
  | ⟨0, _⟩ => show (b.val * 14 + s.val) / 14 = b.val; omega
  | ⟨1, _⟩ => show (b.val * 14 + s.val) / 1 % 14 = s.val; omega
  | ⟨2, _⟩ => rfl

/-- The second layer's weight read with hidden unit d: entry (d, 0) of the column. -/
theorem ridx5_at (b : Fin 16384) (s : Fin 14) (d : Fin 1024) :
    ridx_main_v5 (idx_main_v9 (ix2 b s)) d = ix2 d 0 := by
  funext a; apply Fin.ext
  match a with
  | ⟨0, _⟩ => rfl
  | ⟨1, _⟩ => rfl

/-- The second bias is read at its only entry. -/
theorem idx6_at (b : Fin 16384) (s : Fin 14) :
    idx_main_v6 (idx_main_v7 (idx_main_v9 (ix2 b s))) = ix1 0 := by
  funext a; apply Fin.ext
  match a with
  | ⟨0, _⟩ => rfl

/-- The token feature read by the first contraction: entry (b, s, k). -/
theorem lidx0_at (b : Fin 16384) (s : Fin 14) (d k : Fin 1024) :
    lidx_main_v0 (ix3 b s d) k = ix3 b s k := by
  funext a; apply Fin.ext
  match a with
  | ⟨0, _⟩ => rfl
  | ⟨1, _⟩ => rfl
  | ⟨2, _⟩ => rfl

/-- The first layer's weight read by the first contraction: entry (k, d). -/
theorem ridx0_at (b : Fin 16384) (s : Fin 14) (d k : Fin 1024) :
    ridx_main_v0 (ix3 b s d) k = ix2 k d := by
  funext a; apply Fin.ext
  match a with
  | ⟨0, _⟩ => rfl
  | ⟨1, _⟩ => rfl

/-- The first bias read at hidden unit d. -/
theorem idx1_at (b : Fin 16384) (s : Fin 14) (d : Fin 1024) :
    idx_main_v1 (idx_main_v2 (ix3 b s d)) = ix1 d := by
  funext a; apply Fin.ext
  match a with
  | ⟨0, _⟩ => rfl

/-- The normalised weight read by the pooling at (b, h), position s: the row-major re-reading's entry for token (b, s). -/
theorem idx22_at (b : Fin 16384) (h : Fin 1024) (s : Fin 14) :
    idx_main_v22 (lidx_main_v23 (idx_main_v24 (ix2 b h)) s) = Cert.AttnPool.rereadIdx b s := by
  have hb := b.isLt; have hh := h.isLt; have hs := s.isLt
  unfold Cert.AttnPool.rereadIdx
  funext a; apply Fin.ext
  match a with
  | ⟨0, _⟩ =>
    show ((((b.val * 1024 + h.val) / 1024) * 1 + 0) * 14 + s.val) / 16384 = (b.val * 14 + s.val) / 16384
    have e : (b.val * 1024 + h.val) / 1024 = b.val := by omega
    rw [e, Nat.mul_one, Nat.add_zero]
  | ⟨1, _⟩ =>
    show ((((b.val * 1024 + h.val) / 1024) * 1 + 0) * 14 + s.val) % 16384 = (b.val * 14 + s.val) % 16384
    have e : (b.val * 1024 + h.val) / 1024 = b.val := by omega
    rw [e, Nat.mul_one, Nat.add_zero]

/-- The token feature read by the pooling at (b, h), position s: entry (b, s, h). -/
theorem ridx23_at (b : Fin 16384) (h : Fin 1024) (s : Fin 14) :
    ridx_main_v23 (idx_main_v24 (ix2 b h)) s = ix3 b s h := by
  have hb := b.isLt; have hh := h.isLt
  funext a; apply Fin.ext
  match a with
  | ⟨0, _⟩ => show (b.val * 1024 + h.val) / 1024 = b.val; omega
  | ⟨1, _⟩ => rfl
  | ⟨2, _⟩ => show (b.val * 1024 + h.val) % 1024 = h.val; omega

/-- The reference's scores are the specification's: the two contractions are the two sums, the biases are added
    after each, and the squeezed unit axis reads entry 0. -/
theorem ref_scores (x0 : FVec Ideal S16384x14x1024 .f32) (x1 : FVec Ideal S1024x1024 .f32) (x2 : FVec Ideal S1024 .f32) (x3 : FVec Ideal S1024x1 .f32) (x4 : FVec Ideal S1 .f32) :
    val_main_v9 (F := Ideal) x0 x1 x2 x3 x4 = Cert.AttnPool.score x0 x1 x2 (fun d => x3 (ix2 d 0)) (x4 (ix1 0)) := by
  funext i
  obtain ⟨b, s, rfl⟩ : ∃ (b : Fin 16384) (s : Fin 14), i = ix2 b s := ⟨i 0, i 1, eq_ix2 i⟩
  unfold Cert.AttnPool.score Cert.AttnPool.scoreAt
  rw [val_main_v9_apply, val_main_v8_apply, val_main_v5_apply, val_main_v7_apply, val_main_v6_apply, idx6_at]
  refine congrArg (· + _) (Finset.sum_congr rfl fun d _ => ?_)
  rw [lidx5_at, ridx5_at, val_main_v4_apply, val_main_v3_apply, val_main_v0_apply, val_main_v2_apply,
    val_main_v1_apply, idx1_at]
  simp only [lidx0_at, ridx0_at, Ideal.hostUnary_tanh_def, Ideal.addf_def]

/-- The reference's result is the pooling of the token features under the normalised weights re-read row-major:
    the batched contraction over the position axis is the sum over positions. -/
theorem ref_pooled (x0 : FVec Ideal S16384x14x1024 .f32) (x1 : FVec Ideal S1024x1024 .f32) (x2 : FVec Ideal S1024 .f32) (x3 : FVec Ideal S1024x1 .f32) (x4 : FVec Ideal S1 .f32) :
    val_main_v24 (F := Ideal) x0 x1 x2 x3 x4 = Cert.AttnPool.pool (Cert.AttnPool.reread (val_main_v21 (F := Ideal) x0 x1 x2 x3 x4)) x0 := by
  funext i
  obtain ⟨b, h, rfl⟩ : ∃ (b : Fin 16384) (h : Fin 1024), i = ix2 b h := ⟨i 0, i 1, eq_ix2 i⟩
  unfold Cert.AttnPool.pool Cert.AttnPool.poolAt Cert.AttnPool.reread
  rw [val_main_v24_apply, val_main_v23_apply]
  refine Finset.sum_congr rfl fun s _ => ?_
  rw [val_main_v22_apply, idx22_at, ridx23_at]

/-- The reference run's result as the specification's functions of the arguments. -/
theorem ref_result (m : (ℓ : Loc nD τ sig) → Buf (Elt Ideal) ℓ) (c : Dev nD) :
    Cert.ReferenceIdeal.Value.res_main_v24 (F := Ideal) m c
      = Cert.AttnPool.pool (Cert.AttnPool.reread (softmaxT (F := Ideal) (Cert.AttnPool.score
          (m ((c.tc : Thread nD τ).loc main_arg0)) (m ((c.tc : Thread nD τ).loc main_arg1)) (m ((c.tc : Thread nD τ).loc main_arg2))
          (fun d => m ((c.tc : Thread nD τ).loc main_arg3) (ix2 d 0)) (m ((c.tc : Thread nD τ).loc main_arg4) (ix1 0)))))
        (m ((c.tc : Thread nD τ).loc main_arg0)) := by
  rw [val_main_v24_eq, ref_pooled, softmax_stage, ref_scores]

end Cert.ReferenceIdeal.RefValue

end
-- ==== Proof.Claims.lean ====
/-
  The five claims.

  Both programs compute, from the same launch memory, the pooling of the token features under the softmax of the token
  scores re-read row-major. The kernel program does it in two kernels with the softmax on the host between them; the
  reference in one host program. The scores agree because each contraction is the same finite sum on the extended reals
  (no term is moved across a sum or a product, so no finiteness is used), the softmax is the same chain of operations
  applied to equal scores and is never opened, and the pooling is the same sum over the 14 positions.
-/
import proofs.«132221_j77446850282041_1_alg».proof.Defs
import proofs.«132221_j77446850282041_1_alg».proof.Proof.Gen.Kernel.Frame
import proofs.«132221_j77446850282041_1_alg».proof.Proof.Gen.KernelIdeal.Frame
import proofs.«132221_j77446850282041_1_alg».proof.Proof.Gen.ReferenceIdeal.Run
import proofs.«132221_j77446850282041_1_alg».proof.Proof.Gen.Pre_finite_inputs
import proofs.«132221_j77446850282041_1_alg».proof.Proof.KernelRun
import proofs.«132221_j77446850282041_1_alg».proof.Proof.KernelValue
import proofs.«132221_j77446850282041_1_alg».proof.Proof.RefValue

noncomputable section

namespace Cert.Proof.Claims

open Idealize.ShloMosaic Idealize.ShloMosaic.TcCoe Idealize.SL.Sem

/-- The two programs' softmax functions are one: the same operations in the same order, each written with its own
    program's shape facts. -/
theorem softmax_same (X : FVec Ideal Cert.KernelIdeal.S16384x14 .f32) :
    Cert.KernelIdeal.HostValue.softmaxT (F := Ideal) X = Cert.ReferenceIdeal.RefValue.softmaxT (F := Ideal) X := rfl

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both runs end with the result buffer at the pooling of the token
    features under the softmax of their scores re-read row-major, one function of the arguments. -/
theorem algebraic : Cert.algebraic_KernelIdeal_ReferenceIdeal := by
  intro m ρ m' ρ' _ hagree
  refine ⟨fun c => Cert.AttnPool.pool (Cert.AttnPool.reread (Cert.KernelIdeal.HostValue.softmaxT (F := Ideal) (Cert.AttnPool.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (fun d => m ((c.tc : Thread Cert.KernelIdeal.nD Cert.KernelIdeal.τ).loc Cert.KernelIdeal.main_arg3) (ValueIdx.ix2 d 0))
      (m ((c.tc : Thread Cert.KernelIdeal.nD Cert.KernelIdeal.τ).loc Cert.KernelIdeal.main_arg4) (ValueIdx.ix1 0)))))
      (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.ResultValue.result_as_launched m ρ c), (h c).2⟩)
      (Cert.KernelIdeal.RunValue.run_value (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.ref_result, (hagree c).1, (hagree c).2.1, (hagree c).2.2.1, (hagree c).2.2.2.1,
      (hagree c).2.2.2.2]
    dsimp only
    rw [softmax_same]

end Cert.Proof.Claims

end
-- ==== Proof.lean ====
/-
  Attention pooling: two kernels with a host softmax between them, against one host program.

  Each token (sequence b of 16384, position s of 14) has a score, a two-layer perceptron's output
  `∑_d tanh (∑ₖ q[b,s,k] · W₁[k,d] + b₁[d]) · w₂[d] + b₂`; the scores, laid out position-major [14, 16384], are normalised
  by a softmax along the batch axis and re-read row-major as [16384, 14]; the result is `∑ₛ weight[b,s] · q[b,s,h]`.
  The kernel program computes the scores in a first kernel (a matrix product per block of 64 sequences, a lane sum for
  the second layer), the softmax on the host, and the pooling in a second kernel (a sum over the position axis per block
  of 128 sequences); the reference computes all of it on the host with three contractions. On the extended reals every
  contraction and lane sum is the same finite sum, the two changes of float format are the identity, and the softmax is
  the same chain of operations on equal scores, so the results are equal entry by entry; nothing is rewritten by the
  idealization, and the precondition is not needed for the values.
  Proof/Spec.lean has the functions; Proof/KernelScores.lean and Proof/KernelPooled.lean what each kernel leaves in its
  output array; Proof/KernelHost.lean the host operations around them; Proof/KernelValue.lean the kernel program's
  result; Proof/RefValue.lean the reference's; Proof/Claims.lean the five claims.
-/
import proofs.«132221_j77446850282041_1_alg».proof.Defs
import proofs.«132221_j77446850282041_1_alg».proof.Proof.Gen.Kernel
import proofs.«132221_j77446850282041_1_alg».proof.Proof.Gen.KernelIdeal
import proofs.«132221_j77446850282041_1_alg».proof.Proof.Gen.ReferenceIdeal
import proofs.«132221_j77446850282041_1_alg».proof.Proof.Gen.Pre_finite_inputs
import proofs.«132221_j77446850282041_1_alg».proof.Proof.Claims
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
